-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x2048 : Shape := ⟨2, ![4096, 2048]⟩
abbrev S4096x128 : Shape := ⟨2, ![4096, 128]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x2048x4096 .f32) (main_arg1 : IVec S4096x2048 32) (main_arg2 : FVec F S4096x128 .f32) (main_arg3 : FVec F S4096x128 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg3
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x2048x4096 : Shape := ⟨3, ![2, 2048, 4096]⟩
abbrev S4096x2048 : Shape := ⟨2, ![4096, 2048]⟩
abbrev S4096x128 : Shape := ⟨2, ![4096, 128]⟩
abbrev S4096 : Shape := ⟨1, ![4096]⟩
abbrev S4096x4096 : Shape := ⟨2, ![4096, 4096]⟩
abbrev S128x2048 : Shape := ⟨2, ![128, 2048]⟩
abbrev S128x128 : Shape := ⟨2, ![128, 128]⟩
abbrev S128x4096 : Shape := ⟨2, ![128, 4096]⟩
abbrev S32x2048 : Shape := ⟨2, ![32, 2048]⟩
abbrev S32x128 : Shape := ⟨2, ![32, 128]⟩
abbrev S32x128x1 : Shape := ⟨3, ![32, 128, 1]⟩
abbrev S32x128x16 : Shape := ⟨3, ![32, 128, 16]⟩
abbrev S32x2048x1 : Shape := ⟨3, ![32, 2048, 1]⟩
abbrev S32x2048x2 : Shape := ⟨3, ![32, 2048, 2]⟩
abbrev S32x4096 : Shape := ⟨2, ![32, 4096]⟩
abbrev S1x4096 : Shape := ⟨2, ![1, 4096]⟩
abbrev S64x4096 : Shape := ⟨2, ![64, 4096]⟩
abbrev S512x4096 : Shape := ⟨2, ![512, 4096]⟩
abbrev S64x512 : Shape := ⟨2, ![64, 512]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S2x2048x4096, .f32⟩
  | .hbm, ⟨1, _⟩ => ⟨S4096x2048, .i32⟩
  | .hbm, ⟨2, _⟩ => ⟨S4096x128, .f32⟩
  | .hbm, ⟨3, _⟩ => ⟨S4096x128, .f32⟩
  | .hbm, ⟨4, _⟩ => ⟨S4096, .f32⟩
  | .hbm, ⟨5, _⟩ => ⟨S4096x4096, .bf16⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S2x2048x4096, .f32⟩
  | .local _ .vmem, ⟨0, _⟩ => ⟨S128x2048, .i32⟩
  | .local _ .vmem, ⟨1, _⟩ => ⟨S128x2048, .i32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x4096, .bf16⟩
  | .local _ .vmem, ⟨7, _⟩ => ⟨S128x4096, .bf16⟩
  | .local _ .vmem, ⟨8, _⟩ => ⟨S64x4096, .f32⟩
  | .local _ .vmem, ⟨9, _⟩ => ⟨S64x4096, .f32⟩
  | .local _ .vmem, ⟨10, _⟩ => ⟨S4096x4096, .bf16⟩
  | .local _ .vmem, ⟨11, _⟩ => ⟨S1x4096, .f32⟩
  | .local _ .vmem, ⟨12, _⟩ => ⟨S64x4096, .f32⟩
  | .local _ .vmem, ⟨13, _⟩ => ⟨S64x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v13 : Index := Scalar.indexCast v2
  let c0_2 : Index := 0#32
  ![v13.toNat, 0]
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v1 : BitVec 32 := Scalar.muli arg5 c32_i32
  let v2 : BitVec 32 := v1
  let v34 : Index := Scalar.indexCast v2
  let c0_4 : Index := 0#32
  ![v34.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

@[reducible] def k1_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  v4
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  let v5 : BitVec 32 := v4
  let v6 : Index := Scalar.indexCast v5
  let c0_2 : Index := 0#32
  ![v6.toNat, 0]
def k1_off2 (k1_t1 : Fin k1_t1_loop.trips) : Fin 2 → Nat :=
  let c0_3 : Index := 0#32
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  let v5 : BitVec 32 := v4
  let v10 : Index := Scalar.indexCast v5
  ![0, v10.toNat]
def k1_off3 (k1_t1 : Fin k1_t1_loop.trips) : Fin 2 → Nat :=
  let c0_4 : Index := 0#32
  let c0_i32 : BitVec 32 := 0#32
  let c1_i32 : BitVec 32 := 1#32
  let arg5 : BitVec 32 := Scf.iv c0_i32 c1_i32 k1_t1
  let c512_i32 : BitVec 32 := 512#32
  let v4 : BitVec 32 := Scalar.muli arg5 c512_i32
  let v5 : BitVec 32 := v4
  let v15 : Index := Scalar.indexCast v5
  ![0, v15.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  h_S32x2048 : 0 < S32x2048.numel
  h_S32x128 : 0 < S32x128.numel
  shapeCasts_S32x128_S32x128x1 : S32x128.ShapeCasts S32x128x1
  shapeCasts_S32x128x1_S32x128x1 : S32x128x1.ShapeCasts S32x128x1
  broadcasts_S32x128x1_S32x128x16 : S32x128x1.Broadcasts S32x128x16
  shapeCasts_S32x128x16_S32x2048 : S32x128x16.ShapeCasts S32x2048
  shapeCasts_S32x2048_S32x2048x1 : S32x2048.ShapeCasts S32x2048x1
  concatenates_S32x2048x1_S32x2048x1_S32x2048x2_d2 : Shape.Concatenates [S32x2048x1, S32x2048x1] S32x2048x2 2
  shapeCasts_S32x2048x2_S32x4096 : S32x2048x2.ShapeCasts S32x4096
  bitsLt_bf16_f32 : FTy.bits .bf16 < FTy.bits .f32
  h_S32x4096 : 0 < S32x4096.numel
  shapeCasts_S2x2048x4096_S4096x4096 : S2x2048x4096.ShapeCasts S4096x4096
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  h_S512x4096 : 0 < S512x4096.numel
  shapeCasts_S512x4096_S512x4096 : S512x4096.ShapeCasts S512x4096
  h_S1x512 : 0 < S1x512.numel
  shapeCasts_S1x512_S1x512 : S1x512.ShapeCasts S1x512
  broadcasts_S1x512_S64x512 : S1x512.Broadcasts S64x512
  h_S64x512 : 0 < S64x512.numel
  shapeCasts_S4096x4096_S2x2048x4096 : S4096x4096.ShapeCasts S2x2048x4096
  dot_S64x4096_S512x4096_S64x512_1_1_0_0_n_n_wf : DotDims.WF S64x4096 S512x4096 S64x512 [1] [1] [0] [0] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x2048.size a ≤ S128x2048.size a
  k0_off2_inb : ∀ k0_t1 : Fin k0_t1_loop.trips, ∀ a, (k0_off2 k0_t1) a + S32x128.size a ≤ S128x128.size a
  k0_off3_inb : ∀ k0_t1 : Fin k0_t1_loop.trips, ∀ a, (k0_off3 k0_t1) a + S32x4096.size a ≤ S128x4096.size a
  k0_off3_packedbf16 : ∀ k0_t1 : Fin k0_t1_loop.trips, (Rect.unit (s := S128x4096) (k0_off3 k0_t1) S32x4096.size (k0_off3_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .i32 = 32 ∨ (Rect.block (s := S4096x2048) S128x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S4096x128.size a
  hwx0_1 : ∀ i : grid0.Coords, EltTy.bits .f32 = 32 ∨ (Rect.block (s := S4096x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S4096x128.size a
  hwx0_2 : ∀ i : grid0.Coords, EltTy.bits .f32 = 32 ∨ (Rect.block (s := S4096x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .bf16 = 32 ∨ (Rect.block (s := S4096x4096) S128x4096.size (cc0_transform_3 i) (hinb0_3 i)).WholeWords (EltTy.packing .bf16)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S512x4096.size a ≤ S4096x4096.size a
  k1_off2_inb : ∀ k1_t1 : Fin k1_t1_loop.trips, ∀ a, (k1_off2 k1_t1) a + S1x512.size a ≤ S1x4096.size a
  k1_off3_inb : ∀ k1_t1 : Fin k1_t1_loop.trips, ∀ a, (k1_off3 k1_t1) a + S64x512.size a ≤ S64x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S4096x4096.size a
  hwx1_0 : ∀ i : grid1.Coords, EltTy.bits .f32 = 32 ∨ (Rect.block (s := S4096x4096) S64x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S4096x4096.size a
  hwx1_3 : ∀ i : grid1.Coords, EltTy.bits .f32 = 32 ∨ (Rect.block (s := S4096x4096) S64x4096.size (cc1_transform_3 i) (hinb1_3 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S64x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S4096x2048 : Shape := ⟨2, ![4096, 2048]⟩
abbrev S4096x128 : Shape := ⟨2, ![4096, 128]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x128x32 : Shape := ⟨3, ![4096, 128, 32]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x2048, .i32⟩
  | .hbm, ⟨2, _⟩ => ⟨S4096x128, .f32⟩
  | .hbm, ⟨3, _⟩ => ⟨S4096x128, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S4096x2048x1, .i32⟩
  | .hbm, ⟨15, _⟩ => ⟨S4096x2048x1, .i32⟩
  | .hbm, ⟨16, _⟩ => ⟨S4096x2048x2, .i32⟩
  | .hbm, ⟨17, _⟩ => ⟨S4096x4096, .i32⟩
  | .hbm, ⟨18, _⟩ => ⟨S4096x4096, .f32⟩
  | .hbm, ⟨19, _⟩ => ⟨S4096x128x32, .f32⟩
  | .hbm, ⟨20, _⟩ => ⟨S4096x4096, .f32⟩
  | .hbm, ⟨21, _⟩ => ⟨S4096x128x32, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S2x2048x4096, .f32⟩
  | .hbm, ⟨26, _⟩ => ⟨S1x1x4096, .f32⟩
  | .hbm, ⟨27, _⟩ => ⟨S2x2048x4096, .f32⟩
  | .hbm, ⟨28, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Spec.lean ====
/-
  What the two programs compute, stated once over literal shapes and independent of either program's text.

  A packed word holds two 4-bit fields in its low byte. Field 0 is bits 0..3, field 1 is bits 4..7. The weight
  matrix entry (o, k) is the field number k mod 2 of word (o, k / 2), read as a signed integer (it lies in 0..15), made
  a real, shifted by the zero point of group (o, k / 32) and scaled by that group's scale. The result is
  x · Wᵀ + bias: entry (b, s, o) is the sum over k of x (b, s, k) times the weight (o, k), plus bias o.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Field number `p` of a packed word, the way the reference extracts it: the low four bits for `p = 0`, otherwise the
    word shifted right (arithmetically) by four and then masked to four bits. -/
def nib (w : BitVec 32) (p : ℕ) : BitVec 32 :=
  if p = 0 then IntOp.andi w 15#32 else IntOp.andi (IntOp.shrsi .host w 4#32) 15#32

/-- One dequantized weight: the field as a real number, minus the zero point, times the scale. -/
def deq (w : BitVec 32) (p : ℕ) (z s : EReal) : EReal :=
  ((((nib w p).toInt : ℝ) : EReal) - z) * s

/-- The dequantized weight matrix [4096, 4096] from the packed words [4096, 2048], the scales and the zero points
    [4096, 128] (one scale and one zero point per group of 32 consecutive entries of a row). -/
def weight (wp : (⟨2, ![4096, 2048]⟩ : Shape).Idx → BitVec 32) (s z : (⟨2, ![4096, 128]⟩ : Shape).Idx → EReal) :
    (⟨2, ![4096, 4096]⟩ : Shape).Idx → EReal := fun i =>
  deq (wp (ix2 (n0 := 4096) (n1 := 2048) ⟨(i 0).val, (i 0).isLt⟩ ⟨(i 1).val / 2, by have h1 : (i 1).val < 4096 := (i 1).isLt; show (i 1).val / 2 < 2048; omega⟩))
    ((i 1).val % 2)
    (z (ix2 (n0 := 4096) (n1 := 128) ⟨(i 0).val, (i 0).isLt⟩ ⟨(i 1).val / 32, by have h1 : (i 1).val < 4096 := (i 1).isLt; show (i 1).val / 32 < 128; omega⟩))
    (s (ix2 (n0 := 4096) (n1 := 128) ⟨(i 0).val, (i 0).isLt⟩ ⟨(i 1).val / 32, by have h1 : (i 1).val < 4096 := (i 1).isLt; show (i 1).val / 32 < 128; omega⟩))

/-- The same on one block of 128 rows: what one grid point of the first kernel leaves in its output block, as a
    function of its three input blocks. -/
def weightBlock (x0 : (⟨2, ![128, 2048]⟩ : Shape).Idx → BitVec 32) (s z : (⟨2, ![128, 128]⟩ : Shape).Idx → EReal) :
    (⟨2, ![128, 4096]⟩ : Shape).Idx → EReal := fun y =>
  deq (x0 (ix2 (n0 := 128) (n1 := 2048) ⟨(y 0).val, (y 0).isLt⟩ ⟨(y 1).val / 2, by have h1 : (y 1).val < 4096 := (y 1).isLt; show (y 1).val / 2 < 2048; omega⟩))
    ((y 1).val % 2)
    (z (ix2 (n0 := 128) (n1 := 128) ⟨(y 0).val, (y 0).isLt⟩ ⟨(y 1).val / 32, by have h1 : (y 1).val < 4096 := (y 1).isLt; show (y 1).val / 32 < 128; omega⟩))
    (s (ix2 (n0 := 128) (n1 := 128) ⟨(y 0).val, (y 0).isLt⟩ ⟨(y 1).val / 32, by have h1 : (y 1).val < 4096 := (y 1).isLt; show (y 1).val / 32 < 128; omega⟩))

/-- x · Wᵀ + b on matrices: entry (r, o) is the sum over k of x (r, k) · w (o, k), plus b (0, o). -/
def linear (x w : (⟨2, ![4096, 4096]⟩ : Shape).Idx → EReal) (b : (⟨2, ![1, 4096]⟩ : Shape).Idx → EReal) :
    (⟨2, ![4096, 4096]⟩ : Shape).Idx → EReal := fun i =>
  (∑ k : Fin 4096, x (ix2 (n0 := 4096) (n1 := 4096) ⟨(i 0).val, (i 0).isLt⟩ k) * w (ix2 (n0 := 4096) (n1 := 4096) ⟨(i 1).val, (i 1).isLt⟩ k))
    + b (ix2 (n0 := 1) (n1 := 4096) ⟨0, Nat.one_pos⟩ ⟨(i 1).val, (i 1).isLt⟩)

/-- The same on one block of 64 rows of x: what one grid point of the second kernel leaves in its output block. -/
def linearBlock (x : (⟨2, ![64, 4096]⟩ : Shape).Idx → EReal) (w : (⟨2, ![4096, 4096]⟩ : Shape).Idx → EReal)
    (b : (⟨2, ![1, 4096]⟩ : Shape).Idx → EReal) : (⟨2, ![64, 4096]⟩ : Shape).Idx → EReal := fun y =>
  (∑ k : Fin 4096, x (ix2 (n0 := 64) (n1 := 4096) ⟨(y 0).val, (y 0).isLt⟩ k) * w (ix2 (n0 := 4096) (n1 := 4096) ⟨(y 1).val, (y 1).isLt⟩ k))
    + b (ix2 (n0 := 1) (n1 := 4096) ⟨0, Nat.one_pos⟩ ⟨(y 1).val, (y 1).isLt⟩)

/-- The result [2, 2048, 4096]: entry (b, s, o) is the sum over k of x (b, s, k) · weight (o, k), plus bias o. -/
def result (x : (⟨3, ![2, 2048, 4096]⟩ : Shape).Idx → EReal) (wp : (⟨2, ![4096, 2048]⟩ : Shape).Idx → BitVec 32)
    (s z : (⟨2, ![4096, 128]⟩ : Shape).Idx → EReal) (bias : (⟨1, ![4096]⟩ : Shape).Idx → EReal) :
    (⟨3, ![2, 2048, 4096]⟩ : Shape).Idx → EReal := fun i =>
  (∑ k : Fin 4096, x (ix3 (n0 := 2) (n1 := 2048) (n2 := 4096) ⟨(i 0).val, (i 0).isLt⟩ ⟨(i 1).val, (i 1).isLt⟩ k)
      * weight wp s z (ix2 (n0 := 4096) (n1 := 4096) ⟨(i 2).val, (i 2).isLt⟩ k))
    + bias (ix1 (n := 4096) ⟨(i 2).val, (i 2).isLt⟩)

/-! ## The two ways of extracting a field agree

The kernel first masks the word to its low byte, then takes the low four bits, or shifts the byte right by four. The
reference takes the low four bits of the word, or shifts the word right by four (arithmetically) and masks to four
bits. Bit by bit both give bits 0..3, respectively bits 4..7, of the word. -/

theorem nib_low (w : BitVec 32) : IntOp.andi (IntOp.andi w 255#32) 15#32 = nib w 0 := by
  unfold nib IntOp.andi
  rw [if_pos rfl, BitVec.and_assoc]
  rfl

/-- Bit j of 255 is set exactly for j < 8, -/
theorem testBit_255 (j : Nat) : Nat.testBit 255 j = decide (j < 8) := by
  have : (255 : Nat) = 2 ^ 8 - 1 := by norm_num
  rw [this, Nat.testBit_two_pow_sub_one]

/-- and bit j of 15 exactly for j < 4. -/
theorem testBit_15 (j : Nat) : Nat.testBit 15 j = decide (j < 4) := by
  have : (15 : Nat) = 2 ^ 4 - 1 := by norm_num
  rw [this, Nat.testBit_two_pow_sub_one]

/-- Bit i of either side is bit 4 + i of the word for i < 4 and clear above: the masked byte has a clear sign bit, so
    its arithmetic shift brings in zeros, and the mask by 15 after the word's own shift clears what the sign brought in. -/
theorem nib_high (w : BitVec 32) : IntOp.shrsi .vector (IntOp.andi w 255#32) 4#32 = nib w 1 := by
  unfold nib IntOp.andi IntOp.shrsi
  have h4 : (4#32 : BitVec 32).toNat < 32 := by decide
  rw [if_pos h4, if_neg (by decide : ¬ (1:ℕ) = 0), if_pos h4]
  apply BitVec.eq_of_getLsbD_eq
  intro i hi
  simp only [BitVec.sshiftRight', BitVec.getLsbD_sshiftRight, BitVec.getLsbD_and, BitVec.msb_and, BitVec.getLsbD_ofNat, testBit_255, testBit_15]
  have e4 : (4#32 : BitVec 32).toNat = 4 := by decide
  have m255 : (255#32 : BitVec 32).msb = false := by decide
  rw [e4, m255]
  by_cases h1 : 4 + i < 32
  · by_cases h2 : i < 4
    · simp [h1, h2, hi, show 4 + i < 8 by omega, show ¬ 32 ≤ i by omega]
    · simp [h1, h2, hi, show ¬ 4 + i < 8 by omega]
  · simp [h1, show ¬ i < 4 by omega]

end Cert.Spec

end
-- ==== Proof.R0Pay.lean ====
/-
  The first kernel's payload read at an index. One trip of its loop loads 32 rows of packed words and of the two
  per-group tables and stores 32 rows of 4096 weights. Entry (r, q) of what it stores depends on word (r, q / 2), of
  which it takes field q mod 2 (the two fields are computed side by side and interleaved along the row), and on the
  group (r, q / 32) of the two tables (each table row is repeated 16 times per group at word resolution).
-/
import proofs.«424253_j1855425872551_4_alg».proof.Proof.Gen.KernelIdeal.Frame
import proofs.«424253_j1855425872551_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

/-- A per-group table [32, 128] spread to word resolution [32, 2048] (each entry repeated 16 times along the row):
    entry (r, w) of the spread table is entry (r, w / 16) of the table. -/
theorem spread_apply {α : Type} (t : S32x128.Idx → α)
    (h1 : S32x128.ShapeCasts S32x128x1) (h2 : S32x128x1.ShapeCasts S32x128x1)
    (hb : S32x128x1.Broadcasts S32x128x16) (h3 : S32x128x16.ShapeCasts S32x2048)
    (r : Fin 32) (w : Fin 2048) :
    shapeCast S32x2048 (broadcastTo S32x128x16 (shapeCast S32x128x1 (shapeCast S32x128x1 t h1) h2) hb) h3 (ix2 r w)
      = t (ix2 r (⟨w.val / 16, by have := w.isLt; omega⟩ : Fin 128)) := by
  have hw : w.val < 2048 := w.isLt
  have hr : r.val < 32 := r.isLt
  -- (r, w) of [32, 2048] is (r, w / 16, w mod 16) of [32, 128, 16]
  refine (shapeCast_apply _ h3 (ix2 r w)
    (ix3 (n0 := 32) (n1 := 128) (n2 := 16) r ⟨w.val / 16, by omega⟩ ⟨w.val % 16, by omega⟩) ?_).trans ?_
  · rw [Shape.rowMajor_val_three, Shape.rowMajor_val_two]
    show (r.val * 128 + w.val / 16) * 16 + w.val % 16 = r.val * 2048 + w.val
    omega
  -- the repeated axis reads the table's unit axis at 0
  refine (broadcastTo_apply _ hb _
    (ix3 (n0 := 32) (n1 := 128) (n2 := 1) r ⟨w.val / 16, by omega⟩ ⟨0, Nat.one_pos⟩) ?_).trans ?_
  · intro a
    match a with
    | ⟨0, _⟩ => rfl
    | ⟨1, _⟩ => rfl
    | ⟨2, _⟩ => rfl
  refine (shapeCast_apply _ h2 _
    (ix3 (n0 := 32) (n1 := 128) (n2 := 1) r ⟨w.val / 16, by omega⟩ ⟨0, Nat.one_pos⟩) rfl).trans ?_
  refine shapeCast_apply _ h1 _ (ix2 r ⟨w.val / 16, by omega⟩) ?_
  rw [Shape.rowMajor_val_three, Shape.rowMajor_val_two]
  show r.val * 128 + w.val / 16 = (r.val * 128 + w.val / 16) * 1 + 0
  omega

/-- Two arrays [32, 2048] interleaved along the row into [32, 4096] (each made [32, 2048, 1], joined on the last
    axis, flattened): entry (r, q) is entry (r, q / 2) of the first array for even q, of the second for odd q. -/
theorem interleave_apply {α : Type} (x y : S32x2048.Idx → α)
    (h1 : S32x2048.ShapeCasts S32x2048x1)
    (hc : Shape.Concatenates [S32x2048x1, S32x2048x1] S32x2048x2 2)
    (h2 : S32x2048x2.ShapeCasts S32x4096) (r : Fin 32) (q : Fin 4096) :
    shapeCast S32x4096 (concatenate S32x2048x2 2
        [⟨S32x2048x1, shapeCast S32x2048x1 x h1⟩, ⟨S32x2048x1, shapeCast S32x2048x1 y h1⟩] hc) h2 (ix2 r q)
      = if q.val % 2 = 0 then x (ix2 r (⟨q.val / 2, by have := q.isLt; omega⟩ : Fin 2048))
        else y (ix2 r (⟨q.val / 2, by have := q.isLt; omega⟩ : Fin 2048)) := by
  have hq : q.val < 4096 := q.isLt
  have hr : r.val < 32 := r.isLt
  -- (r, q) of [32, 4096] is (r, q / 2, q mod 2) of [32, 2048, 2]
  refine (shapeCast_apply _ h2 (ix2 r q)
    (ix3 (n0 := 32) (n1 := 2048) (n2 := 2) r ⟨q.val / 2, by omega⟩ ⟨q.val % 2, by omega⟩) ?_).trans ?_
  · rw [Shape.rowMajor_val_three, Shape.rowMajor_val_two]
    show (r.val * 2048 + q.val / 2) * 2 + q.val % 2 = r.val * 4096 + q.val
    omega
  -- (r, w) of [32, 2048] is (r, w, 0) of [32, 2048, 1]
  have hflat : ∀ (u : S32x2048.Idx → α),
      shapeCast S32x2048x1 u h1 (ix3 (n0 := 32) (n1 := 2048) (n2 := 1) r ⟨q.val / 2, by omega⟩ ⟨0, Nat.one_pos⟩)
        = u (ix2 r (⟨q.val / 2, by omega⟩ : Fin 2048)) := by
    intro u
    refine shapeCast_apply _ h1 _ (ix2 r ⟨q.val / 2, by omega⟩) ?_
    rw [Shape.rowMajor_val_three, Shape.rowMajor_val_two]
    show r.val * 2048 + q.val / 2 = (r.val * 2048 + q.val / 2) * 1 + 0
    omega
  by_cases hp : q.val % 2 = 0
  · rw [if_pos hp]
    refine (concatenate_pair_apply_left (2 : Fin S32x2048x2.rank) _ _ hc _ rfl
      (ix3 (n0 := 32) (n1 := 2048) (n2 := 1) r ⟨q.val / 2, by omega⟩ ⟨0, Nat.one_pos⟩) ?_).trans (hflat x)
    intro b
    match b with
    | ⟨0, _⟩ => rfl
    | ⟨1, _⟩ => rfl
    | ⟨2, _⟩ => show 0 = q.val % 2; omega
  · rw [if_neg hp]
    refine (concatenate_pair_apply_right (2 : Fin S32x2048x2.rank) _ _ hc _ rfl rfl
      (ix3 (n0 := 32) (n1 := 2048) (n2 := 1) r ⟨q.val / 2, by omega⟩ ⟨0, Nat.one_pos⟩) ?_ ?_).trans (hflat y)
    · intro b hb
      match b, hb with
      | ⟨0, _⟩, _ => rfl
      | ⟨1, _⟩, _ => rfl
      | ⟨2, _⟩, hb => exact absurd rfl hb
    · show 0 + 1 = q.val % 2
      omega

theorem k0_pay1_apply (v4 : Vec Ideal S32x2048 .i32) (v14 v16 : Vec Ideal S32x128 .f32) (r : Fin 32) (q : Fin 4096) :
    k0_pay1 (F := Ideal) v4 v14 v16 (ix2 r q)
      = Cert.Spec.deq (v4 (ix2 r (⟨q.val / 2, by have := q.isLt; omega⟩ : Fin 2048))) (q.val % 2)
          (v16 (ix2 r (⟨q.val / 32, by have := q.isLt; omega⟩ : Fin 128)))
          (v14 (ix2 r (⟨q.val / 32, by have := q.isLt; omega⟩ : Fin 128))) := by
  have hq : q.val < 4096 := q.isLt
  -- a table spread to word resolution, read at word q / 2, is the table at group q / 32
  have hs : ∀ t : Vec Ideal S32x128 .f32,
      shapeCast S32x2048 (broadcastTo S32x128x16 (shapeCast S32x128x1 (shapeCast S32x128x1 t
          shapeCasts_S32x128_S32x128x1) shapeCasts_S32x128x1_S32x128x1) broadcasts_S32x128x1_S32x128x16)
          shapeCasts_S32x128x16_S32x2048 (ix2 r (⟨q.val / 2, by omega⟩ : Fin 2048))
        = t (ix2 r (⟨q.val / 32, by omega⟩ : Fin 128)) := by
    intro t
    refine (spread_apply t _ _ _ _ r ⟨q.val / 2, by omega⟩).trans ?_
    refine congrArg (fun g : Fin 128 => t (ix2 r g)) (Fin.ext ?_)
    show q.val / 2 / 16 = q.val / 32
    omega
  unfold k0_pay1
  -- rounding to the narrower type is the identity here; below it, the two halves interleaved
  refine (interleave_apply _ _ shapeCasts_S32x2048_S32x2048x1 concatenates_S32x2048x1_S32x2048x1_S32x2048x2_d2
    shapeCasts_S32x2048x2_S32x4096 r q).trans ?_
  by_cases hp : q.val % 2 = 0
  · rw [if_pos hp, hp]
    -- field 0: the low four bits of the low byte
    simp only [mulf, subf, sitofp, andi, shrsi, broadcast]
    rw [hs v16, hs v14, Cert.Spec.nib_low]
    rfl
  · have hp1 : q.val % 2 = 1 := by omega
    rw [if_neg hp, hp1]
    -- field 1: the low byte shifted right by four
    simp only [mulf, subf, sitofp, andi, shrsi, broadcast]
    rw [hs v16, hs v14, Cert.Spec.nib_high]
    rfl

end Cert.KernelIdeal.R0

end
-- ==== Proof.R0Block.lean ====
/-
  What one grid point of the first kernel leaves in its output block. The body's loop makes four trips, trip k storing
  rows 32k .. 32k+31 of the block as the payload of rows 32k .. 32k+31 of the three input blocks. Every entry of the
  payload depends only on entries of its own row, so the four pieces are restrictions of one function of the whole
  input blocks, and since the pieces cover the block, the block read back is that function.
-/
import proofs.«424253_j1855425872551_4_alg».proof.Proof.Gen.KernelIdeal.Frame
import proofs.«424253_j1855425872551_4_alg».proof.Proof.Spec
import proofs.«424253_j1855425872551_4_alg».proof.Proof.R0Pay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

/-- One trip stores one piece: rows 32k .. 32k+31 of the block, each entry the dequantized weight of its own row of the
    three input blocks. -/
theorem trip_piece (𝒱 : Variants) (c : Dev nD) (bd : Option 𝒱.V) (i : grid0.Coords)
    (arg1 : Memref sig .tc .vmem S128x2048 .i32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S128x4096 .bf16) (harg4 : arg4.IsWhole)
    (x0 : Vec Ideal S128x2048 .i32) (x1 : Vec Ideal S128x128 .f32) (x2 : Vec Ideal S128x128 .f32) (k : Fin k0_t1_loop.trips) :
    ∀ p ∈ tripL_k0_t1 (F := Ideal) 𝒱 c bd i arg1 harg1 arg2 harg2 arg3 harg3 arg4 harg4 (harg1.unread x0) (harg2.unread x1) (harg3.unread x2) k,
      ∀ x : p.1.shape.Idx, p.2 x = Cert.Spec.weightBlock x0 x1 x2 (p.1.emb x) := by
  unfold tripL_k0_t1 trip_k0_t1
  dsimp only
  intro p hp
  rw [List.mem_singleton] at hp
  subst hp
  intro x
  dsimp only at x ⊢
  obtain ⟨r, q, rfl⟩ : ∃ (r : Fin 32) (q : Fin 4096), x = ix2 r q := ⟨x 0, x 1, eq_ix2 x⟩
  rw [k0_pay1_apply]
  unfold Cert.Spec.weightBlock
  simp only [View.readAt_eq_ld, harg1.read_unread, harg2.read_unread, harg3.read_unread]
  have e1 := k0_off1_eq k
  have e2 := k0_off2_eq k
  have e3 := k0_off3_eq k
  congr 1
  · refine congrArg x0 (funext fun a => Fin.ext ?_)
    match a with
    | ⟨0, _⟩ =>
      show (k0_off1 k) 0 + 1 * r.val = (k0_off3 k) 0 + 1 * r.val
      rw [e1, e3]
    | ⟨1, _⟩ =>
      show (k0_off1 k) 1 + 1 * (q.val / 2) = ((k0_off3 k) 1 + 1 * q.val) / 2
      rw [e1, e3]
      show 0 + 1 * (q.val / 2) = (0 + 1 * q.val) / 2
      omega
  · show q.val % 2 = ((k0_off3 k) 1 + 1 * q.val) % 2
    rw [e3]
    show q.val % 2 = (0 + 1 * q.val) % 2
    omega
  · refine congrArg x2 (funext fun a => Fin.ext ?_)
    match a with
    | ⟨0, _⟩ =>
      show (k0_off2 k) 0 + 1 * r.val = (k0_off3 k) 0 + 1 * r.val
      rw [e2, e3]
    | ⟨1, _⟩ =>
      show (k0_off2 k) 1 + 1 * (q.val / 32) = ((k0_off3 k) 1 + 1 * q.val) / 32
      rw [e2, e3]
      show 0 + 1 * (q.val / 32) = (0 + 1 * q.val) / 32
      omega
  · refine congrArg x1 (funext fun a => Fin.ext ?_)
    match a with
    | ⟨0, _⟩ =>
      show (k0_off2 k) 0 + 1 * r.val = (k0_off3 k) 0 + 1 * r.val
      rw [e2, e3]
    | ⟨1, _⟩ =>
      show (k0_off2 k) 1 + 1 * (q.val / 32) = ((k0_off3 k) 1 + 1 * q.val) / 32
      rw [e2, e3]
      show 0 + 1 * (q.val / 32) = (0 + 1 * q.val) / 32
      omega

/-- Every piece the first n trips store is a piece of some trip. -/
theorem pb_pieces (𝒱 : Variants) (c : Dev nD) (bd : Option 𝒱.V) (i : grid0.Coords)
    (arg1 : Memref sig .tc .vmem S128x2048 .i32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S128x4096 .bf16) (harg4 : arg4.IsWhole)
    (x0 : Vec Ideal S128x2048 .i32) (x1 : Vec Ideal S128x128 .f32) (x2 : Vec Ideal S128x128 .f32) :
    ∀ n, n ≤ k0_t1_loop.trips →
      ∀ p ∈ pb_k0_t1 (F := Ideal) 𝒱 c bd i arg1 harg1 arg2 harg2 arg3 harg3 arg4 harg4 (harg1.unread x0) (harg2.unread x1) (harg3.unread x2) n,
        ∀ x : p.1.shape.Idx, p.2 x = Cert.Spec.weightBlock x0 x1 x2 (p.1.emb x)
  | 0, _ => fun p hp => by rw [pb_k0_t1.eq_1] at hp; exact absurd hp (List.not_mem_nil)
  | n + 1, h => fun p hp => by
    have hs := pb_k0_t1_succ (F := Ideal) 𝒱 c bd i arg1 harg1 arg2 harg2 arg3 harg3 arg4 harg4 (harg1.unread x0) (harg2.unread x1) (harg3.unread x2) ⟨n, h⟩
    rw [show (⟨n, h⟩ : Fin k0_t1_loop.trips).val + 1 = n + 1 from rfl] at hs
    rw [hs, List.mem_append] at hp
    rcases hp with hp | hp
    · exact trip_piece 𝒱 c bd i arg1 harg1 arg2 harg2 arg3 harg3 arg4 harg4 x0 x1 x2 ⟨n, h⟩ p hp
    · exact pb_pieces 𝒱 c bd i arg1 harg1 arg2 harg2 arg3 harg3 arg4 harg4 x0 x1 x2 n (Nat.le_of_succ_le h) p hp

theorem out0_eq (c : Dev nD) (i : grid0.Coords) (arg1 : Memref sig .tc .vmem S128x2048 .i32) (harg1 : arg1.IsWhole)
    (arg2 : Memref sig .tc .vmem S128x128 .f32) (harg2 : arg2.IsWhole) (arg3 : Memref sig .tc .vmem S128x128 .f32) (harg3 : arg3.IsWhole)
    (arg4 : Memref sig .tc .vmem S128x4096 .bf16) (harg4 : arg4.IsWhole)
    (x0 : Vec Ideal S128x2048 .i32) (x1 : Vec Ideal S128x128 .f32) (x2 : Vec Ideal S128x128 .f32) :
    out0_A_3 (F := Ideal) c i arg1 harg1 arg2 harg2 arg3 harg3 arg4 harg4 x0 x1 x2 = Cert.Spec.weightBlock x0 x1 x2 := by
  unfold out0_A_3
  rw [View.read_writes_eq_canon _ _ _ (cover0_A_3 c i arg1 harg1 arg2 harg2 arg3 harg3 arg4 harg4 x0 x1 x2)]
  funext y
  refine View.canon_apply_of_pieces (Cert.Spec.weightBlock x0 x1 x2) _ ?_ y
    (cover0_A_3 c i arg1 harg1 arg2 harg2 arg3 harg3 arg4 harg4 x0 x1 x2 y)
  have hL : (kernelRun0_A (F := Ideal) c i arg1 harg1 arg2 harg2 arg3 harg3 arg4 harg4 x0 x1 x2).1
      = pb_k0_t1 (F := Ideal) Variants.none c none i arg1 harg1 arg2 harg2 arg3 harg3 arg4 harg4
          (harg1.unread x0) (harg2.unread x1) (harg3.unread x2) k0_t1_loop.trips := by
    unfold kernelRun0_A
    rfl
  rw [hL]
  exact pb_pieces Variants.none c none i arg1 harg1 arg2 harg2 arg3 harg3 arg4 harg4 x0 x1 x2 _ (Nat.le_refl _)

end Cert.KernelIdeal.R0

end
-- ==== Proof.R0Final.lean ====
/-
  The first region's result array. Grid point t writes back rows 128t .. 128t+127 of the weight matrix, computed from
  rows 128t .. 128t+127 of the three argument arrays. The 32 blocks tile the array, so after the region the array is
  the whole dequantized weight matrix.
-/
import proofs.«424253_j1855425872551_4_alg».proof.Proof.Gen.KernelIdeal.Frame
import proofs.«424253_j1855425872551_4_alg».proof.Proof.Spec
import proofs.«424253_j1855425872551_4_alg».proof.Proof.R0Block
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable (V : (c : Dev nD) → (b : Ref sig .tc) → Buf (Elt Ideal) ((c : Thread nD τ).loc b))

/-- The block index maps over the grid: point t reads and writes block row t, block column 0, of every array. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))

/-- What grid point t writes back is block t of the weight matrix: entry (r, q) of its block is the weight at row
    128t + r, column q, whose word, scale and zero point are row 128t + r of the argument arrays, i.e. row r of the
    point's input blocks. -/
theorem flushed_eq (c : Dev nD) (t : Fin cfg0.N) :
    (dat0 (F := Ideal) V c).flushed 3 t
      = ((cfg0.win 3).blk t).view.read (Elt Ideal) (Cert.Spec.weight (V c main_arg1) (V c main_arg2) (V c main_arg3)) := by
  show (cfg0.win 3).cut (grid0.coords t) ((dat0 (F := Ideal) V c).after 3 t) = _
  rw [after0_3]
  unfold outsAt0
  rw [out0_eq]
  funext j
  obtain ⟨⟨e00, e01⟩, ⟨e10, e11⟩, ⟨e20, e21⟩, ⟨e30, e31⟩⟩ := idx_facts t
  show Cert.Spec.weightBlock (iblk0 V c 0 t) (iblk0 V c 1 t) (iblk0 V c 2 t) j
    = Cert.Spec.weight (V c main_arg1) (V c main_arg2) (V c main_arg3) (((cfg0.win 3).blk t).view.emb j)
  have hj0 : (j 0).val < 128 := (j 0).isLt
  have hj1 : (j 1).val < 4096 := (j 1).isLt
  have h0 : ((((cfg0.win 3).blk t).view.emb j) 0).val = 128 * t.val + (j 0).val := by
    show win0_3.index t 0 * 128 + 1 * (j 0).val = _
    rw [e30]; omega
  have h1 : ((((cfg0.win 3).blk t).view.emb j) 1).val = (j 1).val := by
    show win0_3.index t 1 * 4096 + 1 * (j 1).val = _
    rw [e31]; omega
  unfold Cert.Spec.weightBlock Cert.Spec.weight
  dsimp only
  congr 1
  · unfold iblk0
    rw [View.read_apply]
    show V c main_arg1 _ = V c main_arg1 _
    congr 1
    funext a
    apply Fin.ext
    match a with
    | ⟨0, _⟩ =>
      show win0_0.index t 0 * 128 + 1 * (j 0).val = (((cfg0.win 3).blk t).view.emb j 0).val
      rw [e00, h0]; omega
    | ⟨1, _⟩ =>
      show win0_0.index t 1 * 2048 + 1 * ((j 1).val / 2) = (((cfg0.win 3).blk t).view.emb j 1).val / 2
      rw [e01, h1]; omega
  · show (j 1).val % 2 = (((cfg0.win 3).blk t).view.emb j 1).val % 2
    rw [h1]
  · unfold iblk0
    rw [View.read_apply]
    show V c main_arg3 _ = V c main_arg3 _
    congr 1
    funext a
    apply Fin.ext
    match a with
    | ⟨0, _⟩ =>
      show win0_2.index t 0 * 128 + 1 * (j 0).val = (((cfg0.win 3).blk t).view.emb j 0).val
      rw [e20, h0]; omega
    | ⟨1, _⟩ =>
      show win0_2.index t 1 * 128 + 1 * ((j 1).val / 32) = (((cfg0.win 3).blk t).view.emb j 1).val / 32
      rw [e21, h1]; omega
  · unfold iblk0
    rw [View.read_apply]
    show V c main_arg2 _ = V c main_arg2 _
    congr 1
    funext a
    apply Fin.ext
    match a with
    | ⟨0, _⟩ =>
      show win0_1.index t 0 * 128 + 1 * (j 0).val = (((cfg0.win 3).blk t).view.emb j 0).val
      rw [e10, h0]; omega
    | ⟨1, _⟩ =>
      show win0_1.index t 1 * 128 + 1 * ((j 1).val / 32) = (((cfg0.win 3).blk t).view.emb j 1).val / 32
      rw [e11, h1]; omega

/-- The 32 blocks of 128 rows tile the array, every grid point writes its block back, so the array ends as the whole
    dequantized weight matrix. -/
theorem final0 (c : Dev nD) :
    (dat0 (F := Ideal) V c).arrAt 3 cfg0.N = Cert.Spec.weight (V c main_arg1) (V c main_arg2) (V c main_arg3) := by
  refine (dat0 (F := Ideal) V c).arrAt_eq_of_cover 3 _ (fun t _ => flushed_eq V c t) fun i => ?_
  have hi0 : (i 0).val < 4096 := (i 0).isLt
  have hi1 : (i 1).val < 4096 := (i 1).isLt
  have hN : cfg0.N = 32 := N_0
  obtain ⟨t, ht⟩ : ∃ t : Fin cfg0.N, t.val = (i 0).val / 128 := ⟨⟨(i 0).val / 128, by rw [hN]; omega⟩, rfl⟩
  obtain ⟨-, -, -, ⟨e30, e31⟩⟩ := idx_facts t
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 128 ≤ (i 0).val ∧ (i 0).val < win0_3.index t 0 * 128 + 128
    rw [e30, ht]; omega
  | ⟨1, _⟩ =>
    show win0_3.index t 1 * 4096 ≤ (i 1).val ∧ (i 1).val < win0_3.index t 1 * 4096 + 4096
    rw [e31]; omega

end Cert.KernelIdeal.R0

end
-- ==== Proof.R1Pay.lean ====
/-
  The second kernel's payload read at an index. One trip of its loop multiplies the 64 rows of x it holds by 512 rows
  of the weight matrix, contracting the 4096 columns, and adds the 512 matching bias entries. With exact arithmetic a
  matrix product into a zero accumulator is the plain sum of products, and the change of float format is the identity.
-/
import proofs.«424253_j1855425872551_4_alg».proof.Proof.Gen.KernelIdeal.Frame
import proofs.«424253_j1855425872551_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

/-- The left operand's row axis is the output's row axis. -/
theorem lhs_k1_0 (j : S64x512.Idx) (c : dot_S64x4096_S512x4096_S64x512_1_1_0_0_n_n.contr.Idx) :
    (dot_S64x4096_S512x4096_S64x512_1_1_0_0_n_n.lhsIdx j c 0).val = (j 0).val := by
  unfold DotDims.lhsIdx
  rw [dif_neg (show ¬(0 : Fin S64x4096.rank) ∈ dot_S64x4096_S512x4096_S64x512_1_1_0_0_n_n.lhsBatch by decide), dif_pos (show (0 : Fin S64x4096.rank) ∈ dot_S64x4096_S512x4096_S64x512_1_1_0_0_n_n.lhsNonContracting by decide)]
  rfl
/-- The left operand's column axis is the contracted one. -/
theorem lhs_k1_1 (j : S64x512.Idx) (c : dot_S64x4096_S512x4096_S64x512_1_1_0_0_n_n.contr.Idx) :
    (dot_S64x4096_S512x4096_S64x512_1_1_0_0_n_n.lhsIdx j c 1).val = (c ⟨0, by decide⟩).val :=
  dot_S64x4096_S512x4096_S64x512_1_1_0_0_n_n.lhsIdx_val_of_single rfl j c
/-- The right operand's row axis is the output's column axis. -/
theorem rhs_k1_0 (j : S64x512.Idx) (c : dot_S64x4096_S512x4096_S64x512_1_1_0_0_n_n.contr.Idx) :
    (dot_S64x4096_S512x4096_S64x512_1_1_0_0_n_n.rhsIdx j c 0).val = (j 1).val := by
  unfold DotDims.rhsIdx
  rw [dif_neg (show ¬(0 : Fin S512x4096.rank) ∈ dot_S64x4096_S512x4096_S64x512_1_1_0_0_n_n.rhsBatch by decide), dif_pos (show (0 : Fin S512x4096.rank) ∈ dot_S64x4096_S512x4096_S64x512_1_1_0_0_n_n.rhsNonContracting by decide)]
  rfl
/-- The right operand's column axis is the contracted one. -/
theorem rhs_k1_1 (j : S64x512.Idx) (c : dot_S64x4096_S512x4096_S64x512_1_1_0_0_n_n.contr.Idx) :
    (dot_S64x4096_S512x4096_S64x512_1_1_0_0_n_n.rhsIdx j c 1).val = (c ⟨0, by decide⟩).val :=
  dot_S64x4096_S512x4096_S64x512_1_1_0_0_n_n.rhsIdx_val_of_single rfl j c

theorem k1_pay1_apply (v0 : Vec Ideal S64x4096 .f32) (v7 : Vec Ideal S512x4096 .bf16) (v11 : Vec Ideal S1x512 .f32) (r : Fin 64) (q : Fin 512) :
    k1_pay1 (F := Ideal) v0 v7 v11 (ix2 r q)
      = (∑ k : Fin 4096, v0 (ix2 r k) * v7 (ix2 q k)) + v11 (ix2 (⟨0, Nat.one_pos⟩ : Fin 1) q) := by
  unfold k1_pay1
  rw [shapeCast_self, shapeCast_self, shapeCast_self]
  rw [addf_apply]
  simp only [matmul]
  rw [Ideal.matmul_constant_zero_apply,
    ← Equiv.sum_comp (contrEquiv1 dot_S64x4096_S512x4096_S64x512_1_1_0_0_n_n 4096 rfl rfl).symm]
  -- the bias row, broadcast down the 64 rows
  have hb : broadcastTo S64x512 v11 broadcasts_S1x512_S64x512 (ix2 r q) = v11 (ix2 (⟨0, Nat.one_pos⟩ : Fin 1) q) :=
    broadcastTo_apply v11 broadcasts_S1x512_S64x512 (ix2 r q) (ix2 (⟨0, Nat.one_pos⟩ : Fin 1) q) (fun a => by
      match a with
      | ⟨0, _⟩ => rfl
      | ⟨1, _⟩ => rfl)
  rw [hb]
  congr 1
  refine Finset.sum_congr rfl fun k _ => ?_
  have hk := contrEquiv1_symm_val dot_S64x4096_S512x4096_S64x512_1_1_0_0_n_n 4096 rfl rfl k
  have el : dot_S64x4096_S512x4096_S64x512_1_1_0_0_n_n.lhsIdx (ix2 r q) ((contrEquiv1 dot_S64x4096_S512x4096_S64x512_1_1_0_0_n_n 4096 rfl rfl).symm k) = ix2 r k := funext fun a => Fin.ext (by
    match a with
    | ⟨0, _⟩ => exact lhs_k1_0 _ _
    | ⟨1, _⟩ => exact (lhs_k1_1 _ _).trans hk)
  have er : dot_S64x4096_S512x4096_S64x512_1_1_0_0_n_n.rhsIdx (ix2 r q) ((contrEquiv1 dot_S64x4096_S512x4096_S64x512_1_1_0_0_n_n 4096 rfl rfl).symm k) = ix2 q k := funext fun a => Fin.ext (by
    match a with
    | ⟨0, _⟩ => exact rhs_k1_0 _ _
    | ⟨1, _⟩ => exact (rhs_k1_1 _ _).trans hk)
  rw [el, er, truncf_apply]

end Cert.KernelIdeal.R1

end
-- ==== Proof.R1Block.lean ====
/-
  What one grid point of the second kernel leaves in its output block. The body's loop makes eight trips, trip j
  storing columns 512j .. 512j+511 of the block: the 64 rows of x against rows 512j .. 512j+511 of the weight matrix,
  plus bias entries 512j .. 512j+511. Entry (r, o) depends on row r of x, row o of the weights and bias entry o only,
  so the eight pieces are restrictions of one function, and they cover the block.
-/
import proofs.«424253_j1855425872551_4_alg».proof.Proof.Gen.KernelIdeal.Frame
import proofs.«424253_j1855425872551_4_alg».proof.Proof.Spec
import proofs.«424253_j1855425872551_4_alg».proof.Proof.R1Pay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

theorem hz : (![0, 0] : Fin 2 → Nat) = fun _ => 0 := funext fun a => by fin_cases a <;> rfl

/-- A rank-2 index is determined by its two coordinates. -/
theorem idx2_ext {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- The payload on rows 512n .. 512n+511 of the weights and bias entries 512n .. 512n+511, at local (r, q), is the
    block function at (r, 512n + q). -/
theorem pay_at (v0 : Vec Ideal S64x4096 .f32) (W : Vec Ideal S4096x4096 .bf16) (B : Vec Ideal S1x4096 .f32) (n : ℕ)
    (off1 off2 off3 : Fin 2 → ℕ) (h1 : off1 = ![512 * n, 0]) (h2 : off2 = ![0, 512 * n]) (h3 : off3 = ![0, 512 * n])
    (inb1 : ∀ a, off1 a + ![512, 4096] a ≤ S4096x4096.size a) (inb2 : ∀ a, off2 a + ![1, 512] a ≤ S1x4096.size a)
    (inb3 : ∀ a, off3 a + ![64, 512] a ≤ S64x4096.size a)
    (x : (Rect.unit (s := S64x4096) off3 ![64, 512] inb3).shape.Idx) :
    k1_pay1 (F := Ideal) v0 (View.ld W (Rect.unit (s := S4096x4096) off1 ![512, 4096] inb1))
        (View.ld B (Rect.unit (s := S1x4096) off2 ![1, 512] inb2)) x
      = Cert.Spec.linearBlock v0 W B ((Rect.unit (s := S64x4096) off3 ![64, 512] inb3).emb x) := by
  subst h1 h2 h3
  obtain ⟨r, q, rfl⟩ : ∃ (r : Fin 64) (q : Fin 512), x = ix2 r q := ⟨x 0, x 1, eq_ix2 x⟩
  rw [k1_pay1_apply]
  unfold Cert.Spec.linearBlock
  dsimp only [View.ld]
  have e0 : ((Rect.unit (s := S64x4096) ![0, 512 * n] ![64, 512] inb3).emb (ix2 r q) 0).val = r.val := by
    show 0 + 1 * r.val = r.val; omega
  have e1 : ((Rect.unit (s := S64x4096) ![0, 512 * n] ![64, 512] inb3).emb (ix2 r q) 1).val = 512 * n + q.val := by
    show 512 * n + 1 * q.val = 512 * n + q.val; omega
  congr 1
  · refine Finset.sum_congr rfl fun k' _ => ?_
    congr 1
    · exact congrArg v0 (idx2_ext _ _ _ e0.symm rfl)
    · refine congrArg W (idx2_ext _ _ _ ?_ ?_)
      · show 512 * n + 1 * q.val = _; rw [e1]; omega
      · show 0 + 1 * k'.val = k'.val; omega
  · refine congrArg B (idx2_ext _ _ _ ?_ ?_)
    · show 0 + 1 * 0 = 0; rfl
    · show 512 * n + 1 * q.val = _; rw [e1]; omega

/-- Trip k's one piece: at local (r, q) it holds the block function at (r, 512k + q). -/
theorem trip_piece (𝒱 : Variants) (c : Dev nD) (bd : Option 𝒱.V) (i : grid1.Coords) (arg1 : Memref sig .tc .vmem S64x4096 .f32) (harg1 : arg1.IsWhole)
    (arg2 : Memref sig .tc .vmem S4096x4096 .bf16) (harg2 : arg2.IsWhole) (arg3 : Memref sig .tc .vmem S1x4096 .f32) (harg3 : arg3.IsWhole)
    (arg4 : Memref sig .tc .vmem S64x4096 .f32) (harg4 : arg4.IsWhole) (v0 : Vec Ideal S64x4096 .f32)
    (X_arg2 : BufTy.Contents (Elt Ideal) arg2.view.ty) (X_arg3 : BufTy.Contents (Elt Ideal) arg3.view.ty) (k : Fin k1_t1_loop.trips) :
    ∀ p ∈ tripL_k1_t1 (F := Ideal) 𝒱 c bd i arg1 harg1 arg2 harg2 arg3 harg3 arg4 harg4 v0 X_arg2 X_arg3 k,
      ∀ x : p.1.shape.Idx, p.2 x
        = Cert.Spec.linearBlock v0 (arg2.view.read (Elt Ideal) X_arg2) (arg3.view.read (Elt Ideal) X_arg3) (p.1.emb x) := by
  unfold tripL_k1_t1 trip_k1_t1
  dsimp only
  intro p hp
  rw [List.mem_singleton] at hp
  subst hp
  intro x
  dsimp only at x ⊢
  exact pay_at v0 (arg2.view.read (Elt Ideal) X_arg2) (arg3.view.read (Elt Ideal) X_arg3) k.val _ _ _
    (k1_off1_eq k) (k1_off2_eq k) (k1_off3_eq k) _ _ _ x

/-- Every piece the first n trips store is a restriction of the block function. -/
theorem pb_pieces (𝒱 : Variants) (c : Dev nD) (bd : Option 𝒱.V) (i : grid1.Coords) (arg1 : Memref sig .tc .vmem S64x4096 .f32) (harg1 : arg1.IsWhole)
    (arg2 : Memref sig .tc .vmem S4096x4096 .bf16) (harg2 : arg2.IsWhole) (arg3 : Memref sig .tc .vmem S1x4096 .f32) (harg3 : arg3.IsWhole)
    (arg4 : Memref sig .tc .vmem S64x4096 .f32) (harg4 : arg4.IsWhole) (v0 : Vec Ideal S64x4096 .f32)
    (X_arg2 : BufTy.Contents (Elt Ideal) arg2.view.ty) (X_arg3 : BufTy.Contents (Elt Ideal) arg3.view.ty) :
    ∀ (n : ℕ), n ≤ k1_t1_loop.trips →
      ∀ p ∈ pb_k1_t1 (F := Ideal) 𝒱 c bd i arg1 harg1 arg2 harg2 arg3 harg3 arg4 harg4 v0 X_arg2 X_arg3 n,
        ∀ x : p.1.shape.Idx, p.2 x
          = Cert.Spec.linearBlock v0 (arg2.view.read (Elt Ideal) X_arg2) (arg3.view.read (Elt Ideal) X_arg3) (p.1.emb x)
  | 0, _ => by
    intro p hp
    rw [pb_k1_t1] at hp
    exact absurd hp List.not_mem_nil
  | m + 1, hn => by
    intro p hp
    have hs := pb_k1_t1_succ (F := Ideal) 𝒱 c bd i arg1 harg1 arg2 harg2 arg3 harg3 arg4 harg4 v0 X_arg2 X_arg3 ⟨m, hn⟩
    rw [show (⟨m, hn⟩ : Fin k1_t1_loop.trips).val = m from rfl] at hs
    rw [hs] at hp
    rcases List.mem_append.mp hp with h | h
    · exact trip_piece 𝒱 c bd i arg1 harg1 arg2 harg2 arg3 harg3 arg4 harg4 v0 X_arg2 X_arg3 ⟨m, hn⟩ p h
    · exact pb_pieces 𝒱 c bd i arg1 harg1 arg2 harg2 arg3 harg3 arg4 harg4 v0 X_arg2 X_arg3 m (Nat.le_of_succ_le hn) p h

theorem out1_eq (c : Dev nD) (i : grid1.Coords) (arg1 : Memref sig .tc .vmem S64x4096 .f32) (harg1 : arg1.IsWhole)
    (arg2 : Memref sig .tc .vmem S4096x4096 .bf16) (harg2 : arg2.IsWhole) (arg3 : Memref sig .tc .vmem S1x4096 .f32) (harg3 : arg3.IsWhole)
    (arg4 : Memref sig .tc .vmem S64x4096 .f32) (harg4 : arg4.IsWhole)
    (x0 : Vec Ideal S64x4096 .f32) (x1 : Vec Ideal S4096x4096 .bf16) (x2 : Vec Ideal S1x4096 .f32) :
    out1_A_3 (F := Ideal) c i arg1 harg1 arg2 harg2 arg3 harg3 arg4 harg4 x0 x1 x2 = Cert.Spec.linearBlock x0 x1 x2 := by
  unfold out1_A_3
  rw [View.read_writes_eq_canon _ _ _ (cover1_A_3 c i arg1 harg1 arg2 harg2 arg3 harg3 arg4 harg4 x0 x1 x2)]
  funext y
  refine View.canon_apply_of_pieces (Cert.Spec.linearBlock x0 x1 x2) _ ?_ y
    (cover1_A_3 c i arg1 harg1 arg2 harg2 arg3 harg3 arg4 harg4 x0 x1 x2 y)
  unfold kernelRun1_A
  dsimp only
  rw [View.readAt_eq_ld, harg1.read_unread, View.ld_unit_zero (S := S64x4096) hz]
  have h := pb_pieces Variants.none c none i arg1 harg1 arg2 harg2 arg3 harg3 arg4 harg4 x0 (harg2.unread x1) (harg3.unread x2)
    k1_t1_loop.trips (Nat.le_refl _)
  rw [harg2.read_unread, harg3.read_unread] at h
  exact h

end Cert.KernelIdeal.R1

end
-- ==== Proof.R1Final.lean ====
/-
  The second region's result array. Grid point t writes back rows 64t .. 64t+63 of x · Wᵀ + b, computed from rows
  64t .. 64t+63 of x and the whole weight matrix and bias row (fetched once, at the first point). The 64 blocks tile
  the array.
-/
import proofs.«424253_j1855425872551_4_alg».proof.Proof.Gen.KernelIdeal.Frame
import proofs.«424253_j1855425872551_4_alg».proof.Proof.Spec
import proofs.«424253_j1855425872551_4_alg».proof.Proof.R1Block
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable (V : (c : Dev nD) → (b : Ref sig .tc) → Buf (Elt Ideal) ((c : Thread nD τ).loc b))

/-- Block t of x as a matrix is its rows 64t .. 64t+63. -/
theorem iblk0_apply (c : Dev nD) (t : Fin cfg1.N) (x : S64x4096.Idx) (k : S4096x4096.Idx)
    (hk0 : (k 0).val = 64 * t.val + (x 0).val) (hk1 : (k 1).val = (x 1).val) :
    (iblk1 (F := Ideal) V c 0 t : Vec Ideal S64x4096 .f32) x = (V c main_v1 : S4096x4096.Idx → Elt Ideal .f32) k := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_v1 _ = V c main_v1 _
  congr 1
  funext a
  apply Fin.ext
  match a with
  | ⟨0, _⟩ => show win1_0.index t 0 * 64 + 1 * (x 0).val = (k 0).val; rw [hi.1, hk0]; omega
  | ⟨1, _⟩ => show win1_0.index t 1 * 4096 + 1 * (x 1).val = (k 1).val; rw [hi.2, hk1]; omega

/-- The weights' one block is the whole matrix. -/
theorem iblk1_apply (c : Dev nD) (t : Fin cfg1.N) (x : S4096x4096.Idx) (k : S4096x4096.Idx)
    (hk0 : (k 0).val = (x 0).val) (hk1 : (k 1).val = (x 1).val) :
    (iblk1 (F := Ideal) V c 1 t : Vec Ideal S4096x4096 .bf16) x = (V c main_v0 : S4096x4096.Idx → Elt Ideal .bf16) k := by
  have hi : win1_1.index t 0 = 0 ∧ win1_1.index t 1 = 0 :=
    (by decide +kernel : ∀ t : Fin grid1.N, win1_1.index t 0 = 0 ∧ win1_1.index t 1 = 0) t
  unfold iblk1
  rw [View.read_apply]
  show V c main_v0 _ = V c main_v0 _
  congr 1
  funext a
  apply Fin.ext
  match a with
  | ⟨0, _⟩ => show win1_1.index t 0 * 4096 + 1 * (x 0).val = (k 0).val; rw [hi.1, hk0]; omega
  | ⟨1, _⟩ => show win1_1.index t 1 * 4096 + 1 * (x 1).val = (k 1).val; rw [hi.2, hk1]; omega

/-- The bias row's one block is the whole row. -/
theorem iblk2_apply (c : Dev nD) (t : Fin cfg1.N) (x : S1x4096.Idx) (k : S1x4096.Idx)
    (hk0 : (k 0).val = (x 0).val) (hk1 : (k 1).val = (x 1).val) :
    (iblk1 (F := Ideal) V c 2 t : Vec Ideal S1x4096 .f32) x = (V c main_v2 : S1x4096.Idx → Elt Ideal .f32) k := by
  have hi : win1_2.index t 0 = 0 ∧ win1_2.index t 1 = 0 :=
    (by decide +kernel : ∀ t : Fin grid1.N, win1_2.index t 0 = 0 ∧ win1_2.index t 1 = 0) t
  unfold iblk1
  rw [View.read_apply]
  show V c main_v2 _ = V c main_v2 _
  congr 1
  funext a
  apply Fin.ext
  match a with
  | ⟨0, _⟩ => show win1_2.index t 0 * 1 + 1 * (x 0).val = (k 0).val; rw [hi.1, hk0]; omega
  | ⟨1, _⟩ => show win1_2.index t 1 * 4096 + 1 * (x 1).val = (k 1).val; rw [hi.2, hk1]; omega

/-- What point t writes back is block t of x · Wᵀ + b: rows 64t .. 64t+63. -/
theorem flushed_eq (c : Dev nD) (t : Fin cfg1.N) :
    (dat1 (F := Ideal) V c).flushed 3 t
      = ((cfg1.win 3).blk t).view.read (Elt Ideal) (Cert.Spec.linear (V c main_v1) (V c main_v0) (V c main_v2)) := by
  have hi : win1_3.index t 0 = t.val ∧ win1_3.index t 1 = 0 :=
    (by decide +kernel : ∀ t : Fin grid1.N, win1_3.index t 0 = t.val ∧ win1_3.index t 1 = 0) t
  show (cfg1.win 3).cut (grid1.coords t) ((dat1 (F := Ideal) V c).after 3 t) = _
  rw [after1_3]
  unfold outsAt1
  rw [out1_eq]
  funext j
  show Cert.Spec.linearBlock (iblk1 V c 0 t) (iblk1 V c 1 t) (iblk1 V c 2 t) j
    = Cert.Spec.linear (V c main_v1) (V c main_v0) (V c main_v2) (((cfg1.win 3).blk t).view.emb j)
  have e0 : ((((cfg1.win 3).blk t).view.emb j : S4096x4096.Idx) 0).val = 64 * t.val + ((j : S64x4096.Idx) 0).val := by
    show win1_3.index t 0 * 64 + 1 * ((j : S64x4096.Idx) 0).val = _; rw [hi.1]; omega
  have e1 : ((((cfg1.win 3).blk t).view.emb j : S4096x4096.Idx) 1).val = ((j : S64x4096.Idx) 1).val := by
    show win1_3.index t 1 * 4096 + 1 * ((j : S64x4096.Idx) 1).val = _; rw [hi.2]; omega
  unfold Cert.Spec.linearBlock Cert.Spec.linear
  dsimp only
  congr 1
  · refine Finset.sum_congr rfl fun k _ => ?_
    congr 1
    · exact iblk0_apply V c t _ _ e0 rfl
    · exact iblk1_apply V c t _ _ e1 rfl
  · exact iblk2_apply V c t _ _ rfl e1

/-- An index of the array is in point t's block iff each coordinate is in the block's range on its axis. -/
theorem mem_blk (t : Fin cfg1.N) (i : S4096x4096.Idx) :
    i ∈ ((cfg1.win 3).blk t).view.set
      ↔ ∀ a : Fin 2, win1_3.index t a * S64x4096.size a ≤ (i a).val
          ∧ (i a).val < win1_3.index t a * S64x4096.size a + S64x4096.size a := by
  show i ∈ ((View.whole main_v3).slice (win1_3.rect t)).set ↔ _
  rw [View.set_slice_whole, Rect.mem_set_unit]
  exact Iff.rfl

theorem final1 (c : Dev nD) :
    (dat1 (F := Ideal) V c).arrAt 3 cfg1.N = Cert.Spec.linear (V c main_v1) (V c main_v0) (V c main_v2) := by
  refine (dat1 (F := Ideal) V c).arrAt_eq_of_cover 3 _ (fun t _ => flushed_eq V c t) fun i => ?_
  have hN : cfg1.N = 64 := N_1
  have hi0 : ((i : S4096x4096.Idx) 0).val < 4096 := ((i : S4096x4096.Idx) 0).isLt
  have hi1 : ((i : S4096x4096.Idx) 1).val < 4096 := ((i : S4096x4096.Idx) 1).isLt
  have ht : ((i : S4096x4096.Idx) 0).val / 64 < cfg1.N := by rw [hN]; omega
  have hi : win1_3.index ⟨_, ht⟩ 0 = ((i : S4096x4096.Idx) 0).val / 64 ∧ win1_3.index ⟨_, ht⟩ 1 = 0 :=
    (by decide +kernel : ∀ t : Fin grid1.N, win1_3.index t 0 = t.val ∧ win1_3.index t 1 = 0) ⟨_, ht⟩
  refine ⟨⟨_, ht⟩, flush1_3 _, ?_⟩
  rw [mem_blk]
  intro a
  match a with
  | ⟨0, _⟩ =>
    show win1_3.index ⟨_, ht⟩ 0 * 64 ≤ ((i : S4096x4096.Idx) 0).val
      ∧ ((i : S4096x4096.Idx) 0).val < win1_3.index ⟨_, ht⟩ 0 * 64 + 64
    rw [hi.1]; omega
  | ⟨1, _⟩ =>
    show win1_3.index ⟨_, ht⟩ 1 * 4096 ≤ ((i : S4096x4096.Idx) 1).val
      ∧ ((i : S4096x4096.Idx) 1).val < win1_3.index ⟨_, ht⟩ 1 * 4096 + 4096
    rw [hi.2]; omega

end Cert.KernelIdeal.R1

end
-- ==== Proof.KValue.lean ====
/-
  The result array after the whole run, as one function of the argument arrays. The last boundary's contents of the
  result are the reshape to [2, 2048, 4096] of the second region's array; that array is x₂ · Wᵀ + b₂ where x₂ is the
  reshape of x to [4096, 4096], b₂ the reshape of the bias to [1, 4096] and W the first region's array, the
  dequantized weights of the three other arguments. A reshape keeps row-major positions, so entry (b, s, o) of the
  result is entry (2048 b + s, o) of the matrix product.
-/
import proofs.«424253_j1855425872551_4_alg».proof.Proof.Gen.KernelIdeal.Frame
import proofs.«424253_j1855425872551_4_alg».proof.Proof.Spec
import proofs.«424253_j1855425872551_4_alg».proof.Proof.KRun
import proofs.«424253_j1855425872551_4_alg».proof.Proof.R0Final
import proofs.«424253_j1855425872551_4_alg».proof.Proof.R1Final
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Named

open Cert.KernelIdeal Cert.KernelIdeal.Gen

/-- Reshapes around the matrix product: row (2048 b + s) of the reshaped x is row (b, s) of x, entry (0, o) of the
    reshaped bias is entry o, and entry (b, s, o) of the reshaped product is entry (2048 b + s, o). -/
theorem reshape_linear (x : Vec Ideal S2x2048x4096 .f32) (W : Vec Ideal S4096x4096 .f32) (b : Vec Ideal S4096 .f32)
    (h1 : S2x2048x4096.ShapeCasts S4096x4096) (h2 : S4096.ShapeCasts S1x4096) (h3 : S4096x4096.ShapeCasts S2x2048x4096) :
    shapeCast S2x2048x4096 (Cert.Spec.linear (shapeCast S4096x4096 x h1) W (shapeCast S1x4096 b h2)) h3
      = fun i => (∑ k : Fin 4096, x (ix3 (n0 := 2) (n1 := 2048) (n2 := 4096) ⟨(i 0).val, (i 0).isLt⟩ ⟨(i 1).val, (i 1).isLt⟩ k)
            * W (ix2 (n0 := 4096) (n1 := 4096) ⟨(i 2).val, (i 2).isLt⟩ k))
          + b (ix1 (n := 4096) ⟨(i 2).val, (i 2).isLt⟩) := by
  funext i
  have h0 : (i 0).val < 2 := (i 0).isLt
  have h1' : (i 1).val < 2048 := (i 1).isLt
  have h2' : (i 2).val < 4096 := (i 2).isLt
  rw [shapeCast_apply _ h3 i (ix2 (n0 := 4096) (n1 := 4096) ⟨(i 0).val * 2048 + (i 1).val, by omega⟩ ⟨(i 2).val, h2'⟩)
    (by rw [Shape.rowMajor_val_two, Shape.rowMajor_val_three]; rfl)]
  unfold Cert.Spec.linear
  refine congrArg₂ (· + ·) (Finset.sum_congr rfl fun k _ => congrArg (· * _) ?_) ?_
  · exact shapeCast_apply x h1 _ _ (by rw [Shape.rowMajor_val_two, Shape.rowMajor_val_three]; rfl)
  · exact shapeCast_apply b h2 _ _ (by rw [Shape.rowMajor_val_two, Shape.rowMajor_val_one]; show (i 2).val = 0 * 4096 + (i 2).val; omega)

variable (m : (ℓ : Loc nD τ sig) → Buf (Elt Ideal) ℓ) (ρ : Dev nD → PrngReg)

/-- The weights the second region finds are the first region's array: the reshapes between the regions write other buffers. -/
theorem V2_main_v0 (c : Dev nD) :
    V2 (F := Ideal) m ρ c main_v0
      = Cert.Spec.weight (m ((c.tc : Thread nD τ).loc main_arg1)) (m ((c.tc : Thread nD τ).loc main_arg2)) (m ((c.tc : Thread nD τ).loc main_arg3)) :=
  calc V2 (F := Ideal) m ρ c main_v0
    _ = W1 m ρ c (Proc.devRef .tc main_v0) := StableHlo.after_of_forall_not_mem (b := Proc.devRef .tc main_v0) _ _ (List.forall_iff_forall_mem.mp (by
          simp only [hostOps1, List.Forall, StableHlo.reshape_writes, Finset.mem_singleton]
          repeat' apply And.intro
          all_goals exact StableHlo.devRef_ne_of_ne (by decide)))
    _ = (dat0 (V0 m ρ) c).arrAt 3 cfg0.N := W1_arr m ρ c 3
    _ = _ := Cert.KernelIdeal.R0.final0 (V0 m ρ) c

/-- The matrix x₂ the second region finds is the reshape of x. -/
theorem V2_main_v1 (c : Dev nD) :
    V2 (F := Ideal) m ρ c main_v1 = shapeCast S4096x4096 (m ((c.tc : Thread nD τ).loc main_arg0) : Vec Ideal S2x2048x4096 .f32) shapeCasts_S2x2048x4096_S4096x4096 := by
  have e : W1 (F := Ideal) m ρ c (Proc.devRef .tc main_arg0) = m ((c.tc : Thread nD τ).loc main_arg0) := W1_of_ne m ρ c main_arg0 (by decide)
  show StableHlo.after hostOps1 (W1 m ρ c) (Proc.devRef .tc main_v1) = _
  after_results
  rw [e]
  rfl

/-- The bias row the second region finds is the reshape of the bias. -/
theorem V2_main_v2 (c : Dev nD) :
    V2 (F := Ideal) m ρ c main_v2 = shapeCast S1x4096 (m ((c.tc : Thread nD τ).loc main_arg4) : Vec Ideal S4096 .f32) shapeCasts_S4096_S1x4096 := by
  have e : W1 (F := Ideal) m ρ c (Proc.devRef .tc main_arg4) = m ((c.tc : Thread nD τ).loc main_arg4) := W1_of_ne m ρ c main_arg4 (by decide)
  show StableHlo.after hostOps1 (W1 m ρ c) (Proc.devRef .tc main_v2) = _
  after_results
  rw [e]
  rfl

theorem W4_result (c : Dev nD) :
    W4 (F := Ideal) m ρ c (Proc.devRef .tc main_v4)
      = Cert.Spec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have e3 : W3 (F := Ideal) m ρ c (Proc.devRef .tc main_v3)
      = Cert.Spec.linear (V2 m ρ c main_v1) (V2 m ρ c main_v0) (V2 m ρ c main_v2) :=
    (W3_arr m ρ c 3).trans (Cert.KernelIdeal.R1.final1 (V2 m ρ) c)
  have e4 : W4 (F := Ideal) m ρ c (Proc.devRef .tc main_v4)
      = shapeCast S2x2048x4096 (W3 m ρ c (Proc.devRef .tc main_v3) : Vec Ideal S4096x4096 .f32) shapeCasts_S4096x4096_S2x2048x4096 := by
    show StableHlo.after hostOps2 (W3 m ρ c) (Proc.devRef .tc main_v4) = _
    after_results
    rfl
  rw [e4, e3, V2_main_v0, V2_main_v1, V2_main_v2, reshape_linear]
  rfl

/-- The kernel's run with its result as the specification's function of the arguments. -/
theorem run_value : θ_run defs (onTc (τ := τ) (main (F := Ideal))) ⟨m, fun _ => 0, ρ⟩ (fun r => ∀ c : Dev nD,
      r.2.mem ((c.tc : Thread nD τ).loc main_v4)
        = Cert.Spec.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (W4_result m ρ c), (h c).2⟩) (run_named (F := Ideal) m ρ)

end Cert.KernelIdeal.Named

end
-- ==== Proof.RefValue.lean ====
/-
  The reference's result is the specification's function of the arguments. Read one operation at a time: the two
  fields of each packed word are laid side by side on a new last axis and the reshape to [4096, 4096] puts field
  k mod 2 of word (o, k / 2) at (o, k); scales and zero points are repeated 32 times along a new last axis and
  reshaped, which puts group (o, k / 32) at (o, k); then the subtraction, the product, the contraction over k with
  x, and the bias broadcast over the two leading axes.
-/
import proofs.«424253_j1855425872551_4_alg».proof.Proof.Gen.ReferenceIdeal.Read
import proofs.«424253_j1855425872551_4_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The low field of word (o, q) sits at (o, q, 0) of the joined planes. -/
theorem v8_even (x1 : (⟨S4096x2048, .i32⟩ : BufTy).Contents (Elt Ideal)) (o : Fin 4096) (q : Fin 2048)
    (j : S4096x2048x2.Idx) (h0 : (j 0).val = o.val) (h1 : (j 1).val = q.val) (h2 : (j 2).val = 0) :
    val_main_v8 (F := Ideal) x1 j = IntOp.andi (x1 (ix2 o q)) 15#32 := by
  unfold val_main_v8
  rw [concatenate_pair_apply_left (t := S4096x2048x2) (s₁ := S4096x2048x1) (s₂ := S4096x2048x1)
    (2 : Fin S4096x2048x2.rank) (val_main_v6 (F := Ideal) x1) (val_main_v7 (F := Ideal) x1)
    concatenates_S4096x2048x1_S4096x2048x1_S4096x2048x2_d2 j rfl
    (ix3 (n0 := 4096) (n1 := 2048) (n2 := 1) o q ⟨0, Nat.one_pos⟩)
    (fun b => by
      match b with
      | ⟨0, _⟩ => exact h0.symm
      | ⟨1, _⟩ => exact h1.symm
      | ⟨2, _⟩ => exact h2.symm)]
  rw [val_main_v6_apply, val_main_v1_apply, val_main_v0_apply, val_main_c_apply]
  congr 2
  funext a
  match a with
  | ⟨0, _⟩ => rfl
  | ⟨1, _⟩ => rfl

/-- The high field of word (o, q) sits at (o, q, 1) of the joined planes. -/
theorem v8_odd (x1 : (⟨S4096x2048, .i32⟩ : BufTy).Contents (Elt Ideal)) (o : Fin 4096) (q : Fin 2048)
    (j : S4096x2048x2.Idx) (h0 : (j 0).val = o.val) (h1 : (j 1).val = q.val) (h2 : (j 2).val = 1) :
    val_main_v8 (F := Ideal) x1 j = IntOp.andi (IntOp.shrsi .host (x1 (ix2 o q)) 4#32) 15#32 := by
  unfold val_main_v8
  rw [concatenate_pair_apply_right (t := S4096x2048x2) (s₁ := S4096x2048x1) (s₂ := S4096x2048x1)
    (2 : Fin S4096x2048x2.rank) (val_main_v6 (F := Ideal) x1) (val_main_v7 (F := Ideal) x1)
    concatenates_S4096x2048x1_S4096x2048x1_S4096x2048x2_d2 j rfl rfl
    (ix3 (n0 := 4096) (n1 := 2048) (n2 := 1) o q ⟨0, Nat.one_pos⟩)
    (fun b hb => by
      match b with
      | ⟨0, _⟩ => exact h0.symm
      | ⟨1, _⟩ => exact h1.symm
      | ⟨2, _⟩ => exact absurd rfl hb)
    (by show 0 + 1 = (j 2).val; omega)]
  rw [val_main_v7_apply, val_main_v5_apply, val_main_v3_apply, val_main_v4_apply, val_main_c_1_apply,
    val_main_v2_apply, val_main_c_0_apply]
  congr 3
  funext a
  match a with
  | ⟨0, _⟩ => rfl
  | ⟨1, _⟩ => rfl

/-- After the reshape, entry (o, k) of the packed fields is field k mod 2 of word (o, k / 2). -/
theorem v9_point (x1 : (⟨S4096x2048, .i32⟩ : BufTy).Contents (Elt Ideal)) (o k : Fin 4096) :
    val_main_v9 (F := Ideal) x1 (ix2 o k)
      = Cert.Spec.nib (x1 (ix2 (n0 := 4096) (n1 := 2048) o ⟨k.val / 2, by have := k.isLt; omega⟩)) (k.val % 2) := by
  have ho : o.val < 4096 := o.isLt
  have hk : k.val < 4096 := k.isLt
  rw [val_main_v9_apply]
  unfold Cert.Spec.nib
  by_cases h : k.val % 2 = 0
  · rw [if_pos h]
    exact v8_even x1 o ⟨k.val / 2, by omega⟩ _
      (by show (o.val * 4096 + k.val) / 4096 = o.val; omega)
      (by show (o.val * 4096 + k.val) / 2 % 2048 = k.val / 2; omega)
      (by show (o.val * 4096 + k.val) % 2 = 0; omega)
  · rw [if_neg h]
    exact v8_odd x1 o ⟨k.val / 2, by omega⟩ _
      (by show (o.val * 4096 + k.val) / 4096 = o.val; omega)
      (by show (o.val * 4096 + k.val) / 2 % 2048 = k.val / 2; omega)
      (by show (o.val * 4096 + k.val) % 2 = 1; omega)

/-- A per-group quantity repeated 32 times and reshaped: entry (o, k) is group (o, k / 32). -/
theorem v12_point (x2 : (⟨S4096x128, .f32⟩ : BufTy).Contents (Elt Ideal)) (o k : Fin 4096) :
    val_main_v12 (F := Ideal) x2 (ix2 o k)
      = x2 (ix2 (n0 := 4096) (n1 := 128) o ⟨k.val / 32, by have := k.isLt; omega⟩) := by
  have ho : o.val < 4096 := o.isLt
  have hk : k.val < 4096 := k.isLt
  rw [val_main_v12_apply, val_main_v11_apply]
  congr 1
  funext a
  match a with
  | ⟨0, _⟩ => exact Fin.ext (by show (o.val * 4096 + k.val) / 4096 = o.val; omega)
  | ⟨1, _⟩ => exact Fin.ext (by show (o.val * 4096 + k.val) / 32 % 128 = k.val / 32; omega)

/-- The same for the zero points. -/
theorem v14_point (x3 : (⟨S4096x128, .f32⟩ : BufTy).Contents (Elt Ideal)) (o k : Fin 4096) :
    val_main_v14 (F := Ideal) x3 (ix2 o k)
      = x3 (ix2 (n0 := 4096) (n1 := 128) o ⟨k.val / 32, by have := k.isLt; omega⟩) := by
  have ho : o.val < 4096 := o.isLt
  have hk : k.val < 4096 := k.isLt
  rw [val_main_v14_apply, val_main_v13_apply]
  congr 1
  funext a
  match a with
  | ⟨0, _⟩ => exact Fin.ext (by show (o.val * 4096 + k.val) / 4096 = o.val; omega)
  | ⟨1, _⟩ => exact Fin.ext (by show (o.val * 4096 + k.val) / 32 % 128 = k.val / 32; omega)

/-- The reference's dequantized matrix is the specification's weight, entry by entry. -/
theorem v16_point (x1 : (⟨S4096x2048, .i32⟩ : BufTy).Contents (Elt Ideal))
    (x2 x3 : (⟨S4096x128, .f32⟩ : BufTy).Contents (Elt Ideal)) (o k : Fin 4096) :
    val_main_v16 (F := Ideal) x1 x2 x3 (ix2 o k) = Cert.Spec.weight x1 x2 x3 (ix2 o k) := by
  rw [val_main_v16_apply, val_main_v15_apply, val_main_v10_apply, v9_point, v12_point, v14_point,
    Ideal.mulf_def, Ideal.subf_def]
  rfl

theorem result_eq (x0 : (⟨S2x2048x4096, .f32⟩ : BufTy).Contents (Elt Ideal)) (x1 : (⟨S4096x2048, .i32⟩ : BufTy).Contents (Elt Ideal))
    (x2 x3 : (⟨S4096x128, .f32⟩ : BufTy).Contents (Elt Ideal)) (x4 : (⟨S4096, .f32⟩ : BufTy).Contents (Elt Ideal)) :
    val_main_v20 (F := Ideal) x0 x1 x2 x3 x4 = Cert.Spec.result x0 x1 x2 x3 x4 := by
  funext i
  unfold Cert.Spec.result
  rw [val_main_v20_apply, val_main_v17_apply, val_main_v19_apply, val_main_v18_apply, Ideal.addf_def]
  -- the bias is read at the last coordinate
  have eb : idx_main_v18 (idx_main_v19 i) = ix1 (n := 4096) ⟨(i 2).val, (i 2).isLt⟩ := by
    funext a
    match a with
    | ⟨0, _⟩ => rfl
  rw [eb]
  congr 1
  refine Finset.sum_congr rfl fun k _ => ?_
  -- the two operands of the contraction, at (b, s, k) and at (o, k)
  have el : lidx_main_v17 i k
      = ix3 (n0 := 2) (n1 := 2048) (n2 := 4096) ⟨(i 0).val, (i 0).isLt⟩ ⟨(i 1).val, (i 1).isLt⟩ k := by
    funext a
    match a with
    | ⟨0, _⟩ => rfl
    | ⟨1, _⟩ => rfl
    | ⟨2, _⟩ => rfl
  have er : ridx_main_v17 i k = ix2 (n0 := 4096) (n1 := 4096) ⟨(i 2).val, (i 2).isLt⟩ k := by
    funext a
    match a with
    | ⟨0, _⟩ => rfl
    | ⟨1, _⟩ => rfl
  rw [el, er, v16_point]

end Cert.ReferenceIdeal.RefValue

end
-- ==== Proof.lean ====
/-
  The certificate's claim. Both idealized programs compute x · Wᵀ + bias over the extended reals, where W is the
  weight matrix dequantized from the packed 4-bit fields, the scales and the zero points (Proof/Spec.lean states it).
  The kernel does it in two regions — the dequantization, 128 rows per grid point, then the product, 64 rows of x per
  grid point against the whole weight matrix — and the reference in one chain of host operations. The two ways of
  extracting a field from a packed word agree bit by bit; everything else is the same arithmetic in another layout,
  so the precondition is not used for the values. The frames of the two kernel programs are the generated ones; the
  reference's frame is its generated run with the result dropped; the idealization rewrote nothing.
-/
import proofs.«424253_j1855425872551_4_alg».proof.Defs
import proofs.«424253_j1855425872551_4_alg».proof.Proof.Gen.Kernel
import proofs.«424253_j1855425872551_4_alg».proof.Proof.Gen.Kernel.Skeleton
import proofs.«424253_j1855425872551_4_alg».proof.Proof.Gen.Kernel.Loops
import proofs.«424253_j1855425872551_4_alg».proof.Proof.Gen.Kernel.Launch
import proofs.«424253_j1855425872551_4_alg».proof.Proof.Gen.Kernel.Points
import proofs.«424253_j1855425872551_4_alg».proof.Proof.Gen.Kernel.Frame
import proofs.«424253_j1855425872551_4_alg».proof.Proof.Gen.KernelIdeal
import proofs.«424253_j1855425872551_4_alg».proof.Proof.Gen.KernelIdeal.Skeleton
import proofs.«424253_j1855425872551_4_alg».proof.Proof.Gen.KernelIdeal.Loops
import proofs.«424253_j1855425872551_4_alg».proof.Proof.Gen.KernelIdeal.Launch
import proofs.«424253_j1855425872551_4_alg».proof.Proof.Gen.KernelIdeal.Points
import proofs.«424253_j1855425872551_4_alg».proof.Proof.Gen.KernelIdeal.Frame
import proofs.«424253_j1855425872551_4_alg».proof.Proof.Gen.ReferenceIdeal
import proofs.«424253_j1855425872551_4_alg».proof.Proof.Gen.ReferenceIdeal.Run
import proofs.«424253_j1855425872551_4_alg».proof.Proof.Gen.ReferenceIdeal.Read
import proofs.«424253_j1855425872551_4_alg».proof.Proof.Gen.Pre_finite_inputs
import proofs.«424253_j1855425872551_4_alg».proof.Proof.KValue
import proofs.«424253_j1855425872551_4_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the specification's function of arguments that agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Named.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
